-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x128 : Shape := ⟨3, ![2, 100000, 128]⟩
abbrev S_ : Shape := ⟨0, ![]⟩

class Facts : Prop where
  bcast_S_S2x100000x128 : S_.BroadcastsInDim S2x100000x128 (![] : Fin 0 → Fin S2x100000x128.rank)
  reducesTo_S2x100000x128_S_d0_1_2 : S2x100000x128.ReducesTo [0, 1, 2] S_
  h_S_ : 0 < S_.numel

variable [Facts]

def fn {F : FTy → Type} [FloatOps F] (main_arg0 : FVec F S2x100000x128 .f32) : IVec S_ 1 :=
  let main_v0 : FVec F S2x100000x128 .f32 := Host.absf main_arg0
  let main_cst : FVec F S_ .f32 := constant S_ .f32 0x7F800000#32
  let main_v1 : FVec F S2x100000x128 .f32 := broadcastInDim S2x100000x128 ![] bcast_S_S2x100000x128 main_cst
  let main_v2 : IVec S2x100000x128 1 := cmpf .olt main_v0 main_v1
  let main_c : IVec S_ 1 := constantI S_ 1 1#1
  let main_v3 : IVec S_ 1 := (fun x v => Host.reduce IntOp.andi x v reducesTo_S2x100000x128_S_d0_1_2 h_S_) main_v2 main_c
  main_v3
-- ==== Kernel.lean ====
abbrev S2x100000x128 : Shape := ⟨3, ![2, 100000, 128]⟩
abbrev S100000x1 : Shape := ⟨2, ![100000, 1]⟩
abbrev S2x4000x128 : Shape := ⟨3, ![2, 4000, 128]⟩
abbrev S4000x1 : Shape := ⟨2, ![4000, 1]⟩
abbrev S1x4000x128 : Shape := ⟨3, ![1, 4000, 128]⟩
abbrev S4000x128 : Shape := ⟨2, ![4000, 128]⟩
abbrev S4000 : Shape := ⟨1, ![4000]⟩
abbrev S100000 : Shape := ⟨1, ![100000]⟩

abbrev nBuf : Space → Nat
  | .hbm => 3
  | .vmem => 4
  | .smem => 0
  | _ => 0

abbrev bufTy : (tb : Table) → Fin (tcTables nBuf tb) → BufTy
  | .hbm, ⟨0, _⟩ => ⟨S2x100000x128, .f32⟩
  | .hbm, ⟨1, _⟩ => ⟨S100000x1, .f32⟩
  | .hbm, ⟨2, _⟩ => ⟨S100000, .f32⟩
  | .local _ .vmem, ⟨0, _⟩ => ⟨S2x4000x128, .f32⟩
  | .local _ .vmem, ⟨1, _⟩ => ⟨S2x4000x128, .f32⟩
  | .local _ .vmem, ⟨2, _⟩ => ⟨S4000x1, .f32⟩
  | .local _ .vmem, ⟨3, _⟩ => ⟨S4000x1, .f32⟩
  | _, _ => ⟨S2x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x4000x128_S1x4000x128_0_0_0 : ∀ a, (![0, 0, 0] : Fin 3 → Nat) a + S1x4000x128.size a ≤ S2x4000x128.size a
  h_S1x4000x128 : 0 < S1x4000x128.numel
  shapeCasts_S1x4000x128_S4000x128 : S1x4000x128.ShapeCasts S4000x128
  inb_S2x4000x128_S1x4000x128_1_0_0 : ∀ a, (![1, 0, 0] : Fin 3 → Nat) a + S1x4000x128.size a ≤ S2x4000x128.size a
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4000x128.size a ≤ S2x100000x128.size a
  hwx0_0 : ∀ i : grid0.Coords, EltTy.bits .f32 = 32 ∨ (Rect.block (s := S2x100000x128) S2x4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)

variable [Facts₀]

abbrev win0_0 : Pipeline.Window sig grid0 :=
  Pipeline.Window.ofSpec (Memref.whole main_arg0) S2x4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x100000x128 : Shape := ⟨3, ![2, 100000, 128]⟩
abbrev S1x100000x128 : Shape := ⟨3, ![1, 100000, 128]⟩
abbrev S100000x128 : Shape := ⟨2, ![100000, 128]⟩
abbrev S_ : Shape := ⟨0, ![]⟩
abbrev S100000 : Shape := ⟨1, ![100000]⟩

abbrev nBuf : Space → Nat
  | .hbm => 8
  | .vmem => 0
  | .smem => 0
  | _ => 0

abbrev bufTy : (tb : Table) → Fin (tcTables nBuf tb) → BufTy
  | .hbm, ⟨0, _⟩ => ⟨S2x100000x128, .f32⟩
  | .hbm, ⟨1, _⟩ => ⟨S1x100000x128, .f32⟩
  | .hbm, ⟨2, _⟩ => ⟨S100000x128, .f32⟩
  | .hbm, ⟨3, _⟩ => ⟨S1x100000x128, .f32⟩
  | .hbm, ⟨4, _⟩ => ⟨S100000x128, .f32⟩
  | .hbm, ⟨5, _⟩ => ⟨S100000x128, .f32⟩
  | .hbm, ⟨6, _⟩ => ⟨S_, .f32⟩
  | .hbm, ⟨7, _⟩ => ⟨S100000, .f32⟩
  | _, _ => ⟨S2x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S2x100000x128_S1x100000x128_0_0_0 : S2x100000x128.Slices ![0, 0, 0] S1x100000x128
  shapeCasts_S1x100000x128_S100000x128 : S1x100000x128.ShapeCasts S100000x128
  slices_S2x100000x128_S1x100000x128_1_0_0 : S2x100000x128.Slices ![1, 0, 0] S1x100000x128
  reducesTo_S100000x128_S100000_d1 : S100000x128.ReducesTo [1] S100000
  h_S_ : 0 < S_.numel

variable [Facts₀]

class Facts : Prop extends Facts₀ where

variable [Facts]
-- ==== Proof.RowDot.lean ====
/-
  The function both programs compute.  The argument stacks two tables u = x[0] and v = x[1], each of 100000 rows of
  128 entries; the result is the vector of the 100000 row-wise dot products  r ↦ ∑_k u[r,k] · v[r,k]  over the
  extended reals.  It is written once as a function of the row, and read as a vector [100000] (what both programs
  return) and as a one-column matrix [100000, 1] (what the kernel's region leaves before the last reshape).
-/
import Idealize.ShloMosaic.PureOps.Ideal
import Idealize.ShloMosaic.Lib.ValueIdx

noncomputable section

open scoped BigOperators

namespace Cert.RowDot

open Idealize.ShloMosaic Idealize.ShloMosaic.ValueIdx

/-- The stacked tables: x[0] = u, x[1] = v. -/
abbrev Tables : Type := (⟨3, ![2, 100000, 128]⟩ : Shape).Idx → EReal

/-- The dot product of row `r` of u with row `r` of v. -/
def rowDot (x : Tables) (r : Fin 100000) : EReal := ∑ k : Fin 128, x (ix3 0 r k) * x (ix3 1 r k)

/-- The dot products as a vector of 100000 entries. -/
def asVector (x : Tables) : (⟨1, ![100000]⟩ : Shape).Idx → EReal := fun i => rowDot x (i 0)

/-- The dot products as a matrix of one column. -/
def asColumn (x : Tables) : (⟨2, ![100000, 1]⟩ : Shape).Idx → EReal := fun i => rowDot x (i 0)

end Cert.RowDot

end
-- ==== Proof.RefRowDot.lean ====
/-
  The reference computes the row-wise dot products.  It slices the two tables out of the stacked argument, drops
  their leading unit axis, multiplies them entry by entry and sums each row over its 128 columns starting from the
  word 0.0: at row r that is  0 + ∑_k x[0,r,k] · x[1,r,k].  Zero is neutral for the sum of extended reals, so this is
  the dot product of the two rows.
-/
import proofs.«100142_g35107062678319_cont_8to1_b_364_6_alg».proof.Proof.Gen.ReferenceIdeal.Read
import proofs.«100142_g35107062678319_cont_8to1_b_364_6_alg».proof.Proof.RowDot
import Idealize.ShloMosaic.PureOps.Ideal.Laws

noncomputable section

open scoped BigOperators

namespace Cert.RowDot

open Idealize.ShloMosaic Idealize.ShloMosaic.ValueIdx Cert.ReferenceIdeal Cert.ReferenceIdeal.Read

/-- Row r, column k of the first table, reached through the reference's slice and reshape. -/
theorem ref_left (i : (⟨1, ![100000]⟩ : Shape).Idx) (k : Fin 128) :
    idx_main_v0 (idx_main_v1 (idx_main_v5 i k)) = ix3 0 (i 0) k := by
  funext a
  apply Fin.ext
  have hi : (i 0).val < 100000 := (i 0).isLt
  have hk : k.val < 128 := k.isLt
  match a with
  | ⟨0, _⟩ => rfl
  | ⟨1, _⟩ => show ((i 0).val * 128 + k.val) / 128 % 100000 = (i 0).val; omega
  | ⟨2, _⟩ => show ((i 0).val * 128 + k.val) % 128 = k.val; omega

/-- The same entry of the second table. -/
theorem ref_right (i : (⟨1, ![100000]⟩ : Shape).Idx) (k : Fin 128) :
    idx_main_v2 (idx_main_v3 (idx_main_v5 i k)) = ix3 1 (i 0) k := by
  funext a
  apply Fin.ext
  have hi : (i 0).val < 100000 := (i 0).isLt
  have hk : k.val < 128 := k.isLt
  match a with
  | ⟨0, _⟩ => rfl
  | ⟨1, _⟩ => show ((i 0).val * 128 + k.val) / 128 % 100000 = (i 0).val; omega
  | ⟨2, _⟩ => show ((i 0).val * 128 + k.val) % 128 = k.val; omega

/-- The reference's result is the vector of row-wise dot products. -/
theorem ref_eq (x : Tables) : val_main_v5 (F := Ideal) x = asVector x := by
  funext i
  rw [val_main_v5_apply, val_main_cst_apply]
  show Ideal.ofBits .f32 0x00000000#32 + _ = _
  rw [Ideal.ofBits_zero_f32, zero_add]
  unfold asVector rowDot
  refine Finset.sum_congr rfl fun k _ => ?_
  rw [val_main_v4_apply, val_main_v1_apply, val_main_v0_apply, val_main_v3_apply, val_main_v2_apply, ref_left, ref_right]
  rfl

end Cert.RowDot

end
-- ==== Proof.KernelRows.lean ====
/-
  One grid point of the kernel, read at an entry.  The body loads the two halves x[0] and x[1] of its staged
  [2, 4000, 128] block, drops their leading unit axis, multiplies them entry by entry, sums every row over its 128
  columns and stores the 4000 sums as a column [4000, 1].  Entry (r, 0) of what it stores is therefore
  ∑_k x[0,r,k] · x[1,r,k]: the lane sum over one axis is the finite sum over that axis's coordinates, and each
  reshape only renames the position of an entry (same place in row-major order).
-/
import proofs.«100142_g35107062678319_cont_8to1_b_364_6_alg».proof.Proof.Gen.KernelIdeal.Frame
import Idealize.ShloMosaic.PureOps.Ideal.Laws
import Idealize.ShloMosaic.Lib.Pipeline.Value
import Idealize.ShloMosaic.Lib.ValueIdx

noncomputable section

open scoped BigOperators

namespace Cert.RowDot

open Idealize.ShloMosaic Idealize.ShloMosaic.ValueIdx Cert.KernelIdeal Cert.KernelIdeal.Gen

theorem zero2 : (![0, 0] : Fin 2 → Nat) = fun _ => 0 := funext fun a => by fin_cases a <;> rfl

/-- A [1, 4000, 128] piece viewed as [4000, 128]: entry (r, k) is entry (0, r, k). -/
theorem piece_apply (v : (⟨3, ![1, 4000, 128]⟩ : Shape).Idx → EReal)
    (h : (⟨3, ![1, 4000, 128]⟩ : Shape).ShapeCasts ⟨2, ![4000, 128]⟩) (r : Fin 4000) (k : Fin 128) :
    shapeCast ⟨2, ![4000, 128]⟩ v h (ix2 r k) = v (ix3 0 r k) := by
  refine shapeCast_apply v h (ix2 r k) (ix3 0 r k) ?_
  rw [Shape.rowMajor_val_three, Shape.rowMajor_val_two]
  show (0 * 4000 + r.val) * 128 + k.val = r.val * 128 + k.val
  omega

/-- A vector of 4000 entries viewed as a column [4000, 1]: entry (r, 0) is entry r. -/
theorem column_apply (v : (⟨1, ![4000]⟩ : Shape).Idx → EReal)
    (h : (⟨1, ![4000]⟩ : Shape).ShapeCasts ⟨2, ![4000, 1]⟩) (r : Fin 4000) :
    shapeCast ⟨2, ![4000, 1]⟩ v h (ix2 r 0) = v (ix1 r) := by
  refine shapeCast_apply v h (ix2 r 0) (ix1 r) ?_
  rw [Shape.rowMajor_val_one, Shape.rowMajor_val_two]
  show r.val = r.val * 1 + 0
  omega

/-- The half `a` of the staged block, read through its rectangle: entry (0, r, k) of the piece is entry (a, r, k)
    of the block. -/
theorem half0_apply (x0 : Vec Ideal S2x4000x128 .f32) (r : Fin 4000) (k : Fin 128) :
    View.ld x0 r0_0 (ix3 0 r k) = x0 (ix3 0 r k) := by
  show x0 _ = x0 _
  refine congrArg x0 (funext fun a => Fin.ext ?_)
  match a with
  | ⟨0, _⟩ => show 0 + 1 * 0 = 0; rfl
  | ⟨1, _⟩ => show 0 + 1 * r.val = r.val; omega
  | ⟨2, _⟩ => show 0 + 1 * k.val = k.val; omega

theorem half1_apply (x0 : Vec Ideal S2x4000x128 .f32) (r : Fin 4000) (k : Fin 128) :
    View.ld x0 r0_1 (ix3 0 r k) = x0 (ix3 1 r k) := by
  show x0 _ = x0 _
  refine congrArg x0 (funext fun a => Fin.ext ?_)
  match a with
  | ⟨0, _⟩ => show 1 + 1 * 0 = 1; rfl
  | ⟨1, _⟩ => show 0 + 1 * r.val = r.val; omega
  | ⟨2, _⟩ => show 0 + 1 * k.val = k.val; omega

/-- What the body leaves in the output's staging buffer, at row r: the dot product of row r of the block's two
    halves. -/
theorem out_apply (x0 : Vec Ideal S2x4000x128 .f32) (r : Fin 4000) :
    out0_1 (F := Ideal) x0 (ix2 r 0) = ∑ k : Fin 128, x0 (ix3 0 r k) * x0 (ix3 1 r k) := by
  unfold out0_1
  rw [View.canon_unit_zero zero2]
  unfold k0_pay1
  refine (column_apply _ _ r).trans ?_
  refine (Ideal.multiReduction_add_single _ 0x00000000#32 _ (.inl rfl) rfl (ix1 r)).trans ?_
  show ∑ k : Fin 128, _ = _
  refine Finset.sum_congr rfl fun k _ => ?_
  show shapeCast S4000x128 (View.ld x0 r0_0) _ (ix2 r k) * shapeCast S4000x128 (View.ld x0 r0_1) _ (ix2 r k) = _
  rw [piece_apply, piece_apply, half0_apply, half1_apply]

end Cert.RowDot

end
-- ==== Proof.KernelArray.lean ====
/-
  From the grid points to the whole column.  Point t of the 25 stages rows 4000·t … 4000·t + 3999 of both tables
  (block (0, t, 0) of the stacked argument) and writes back block (t, 0) of the [100000, 1] result.  Row r of that
  block is the dot product of rows 4000·t + r of the two tables, so every block written back is the matching block
  of the one column of row-wise dot products; the 25 blocks tile the column (row R lies in block R / 4000), hence
  the array the region leaves is that column.
-/
import proofs.«100142_g35107062678319_cont_8to1_b_364_6_alg».proof.Proof.Gen.KernelIdeal.Frame
import proofs.«100142_g35107062678319_cont_8to1_b_364_6_alg».proof.Proof.RowDot
import proofs.«100142_g35107062678319_cont_8to1_b_364_6_alg».proof.Proof.KernelRows
import Idealize.ShloMosaic.Lib.Pipeline.Value
import Idealize.ShloMosaic.Lib.ValueIdx

noncomputable section

open scoped BigOperators

namespace Cert.RowDot

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The index maps over the grid: the input's block moves along the row axis with the output's, both stay at 0 on
    the other axes, and the output's block index is one of 0 … 24. -/
theorem idx_facts : ∀ t : Fin cfg0.N, win0_0.index t (0 : Fin 3) = 0
    ∧ win0_0.index t (1 : Fin 3) = win0_1.index t (0 : Fin 2)
    ∧ win0_0.index t (2 : Fin 3) = 0
    ∧ win0_1.index t (1 : Fin 2) = 0
    ∧ win0_1.index t (0 : Fin 2) ≤ 24 :=
  (by decide +kernel : ∀ t : Fin grid0.N, _)

/-- Every one of the 25 row blocks of the column is some point's. -/
theorem idx_onto : ∀ q : Fin 25, ∃ t : Fin cfg0.N, win0_1.index t = ![q.val, 0] :=
  (by decide +kernel : ∀ q : Fin 25, ∃ t : Fin grid0.N, win0_1.index t = ![q.val, 0])

/-- The staged input block at point t: entry (a, r, k) is entry (a, 4000·(block index) + r, k) of the argument. -/
theorem iblk_apply (c : Dev nD) (t : Fin cfg0.N) (a : Fin 2) (r : Fin 4000) (k : Fin 128) (R : Fin 100000)
    (hR : R.val = win0_1.index t (0 : Fin 2) * 4000 + r.val) :
    (iblk m c 0 t : Vec Ideal S2x4000x128 .f32) (ix3 a r k)
      = (m ((c : Thread nD τ).loc main_arg0) : Tables) (ix3 a R k) := by
  obtain ⟨e0, e1, e2, e3, e4⟩ := idx_facts t
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index t (0 : Fin 3) * 2 + 1 * a.val = a.val; rw [e0]; omega
  | ⟨1, _⟩ => show win0_0.index t (1 : Fin 3) * 4000 + 1 * r.val = R.val; rw [e1, hR]; omega
  | ⟨2, _⟩ => show win0_0.index t (2 : Fin 3) * 128 + 1 * k.val = k.val; rw [e2]; omega

/-- What point t writes back is block t of the column of dot products. -/
theorem flushed_eq (c : Dev nD) (t : Fin cfg0.N) :
    (dats m 0 c).flushed 1 t
      = ((cfg0.win 1).blk t).view.read (Elt Ideal) (asColumn (m ((c : Thread nD τ).loc main_arg0))) := by
  show (cfg0.win 1).cut (grid0.coords t) ((dats m 0 c).after 1 t) = _
  rw [after0_1]
  obtain ⟨e0, e1, e2, e3, e4⟩ := idx_facts t
  funext j
  have hj0 : (j 0).val < 4000 := (j 0).isLt
  have hj1 : (j 1).val < 1 := (j 1).isLt
  have ej : (j : S4000x1.Idx) = ix2 (⟨(j 0).val, hj0⟩ : Fin 4000) (0 : Fin 1) :=
    funext fun a => Fin.ext (by
      match a with
      | ⟨0, _⟩ => rfl
      | ⟨1, _⟩ => show (j 1).val = 0; omega)
  have hlt : win0_1.index t (0 : Fin 2) * 4000 + (j 0).val < 100000 := by omega
  have hrow : (((cfg0.win 1).blk t).view.emb j) 0 = (⟨win0_1.index t (0 : Fin 2) * 4000 + (j 0).val, hlt⟩ : Fin 100000) :=
    Fin.ext (by
      show win0_1.index t (0 : Fin 2) * 4000 + 1 * (j 0).val = win0_1.index t (0 : Fin 2) * 4000 + (j 0).val
      omega)
  show out0_1 (F := Ideal) (iblk m c 0 t) j
    = rowDot (m ((c : Thread nD τ).loc main_arg0)) ((((cfg0.win 1).blk t).view.emb j) 0)
  rw [hrow]
  refine ((congrArg (out0_1 (F := Ideal) (iblk m c 0 t)) ej).trans
    (out_apply (iblk m c 0 t) ⟨(j 0).val, hj0⟩)).trans ?_
  unfold rowDot
  refine Finset.sum_congr rfl fun k _ => ?_
  exact congrArg₂ (· * ·) (iblk_apply m c t 0 ⟨(j 0).val, hj0⟩ k ⟨_, hlt⟩ rfl)
    (iblk_apply m c t 1 ⟨(j 0).val, hj0⟩ k ⟨_, hlt⟩ rfl)

/-- An index of the column is in point t's block iff each coordinate is in the block's range on its axis. -/
theorem mem_blk (t : Fin cfg0.N) (i : S100000x1.Idx) :
    i ∈ ((cfg0.win 1).blk t).view.set ↔ ∀ a : Fin 2, win0_1.index t a * S4000x1.size a ≤ (i a).val
      ∧ (i a).val < win0_1.index t a * S4000x1.size a + S4000x1.size a := by
  show i ∈ ((View.whole main_v0).slice (win0_1.rect t)).set ↔ _
  rw [View.set_slice_whole, Rect.mem_set_unit]
  exact Iff.rfl

/-- Every row of the column is in the block of the point whose block index is the row divided by 4000. -/
theorem covered (i : S100000x1.Idx) :
    ∃ t : Fin cfg0.N, (cfg0.win 1).flush t = true ∧ i ∈ ((cfg0.win 1).blk t).view.set := by
  have hi0 : (i 0).val < 100000 := (i 0).isLt
  have hi1 : (i 1).val < 1 := (i 1).isLt
  obtain ⟨t, ht⟩ := idx_onto ⟨(i 0).val / 4000, by omega⟩
  have q0 : win0_1.index t (0 : Fin 2) = (i 0).val / 4000 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 4000 ≤ (i 0).val ∧ (i 0).val < win0_1.index t (0 : Fin 2) * 4000 + 4000
    omega
  | ⟨1, _⟩ =>
    show win0_1.index t (1 : Fin 2) * 1 ≤ (i 1).val ∧ (i 1).val < win0_1.index t (1 : Fin 2) * 1 + 1
    omega

/-- The array the region leaves: the column of row-wise dot products of the argument's two tables. -/
theorem column_final (c : Dev nD) :
    (dats m 0 c).arrAt 1 cfg0.N = asColumn (m ((c : Thread nD τ).loc main_arg0)) :=
  (dats m 0 c).arrAt_eq_of_cover 1 _ (fun t _ => flushed_eq m c t) covered

end Cert.RowDot

end
-- ==== Proof.KernelRun.lean ====
/-
  The kernel's whole run.  After the region the program reshapes the [100000, 1] column to a vector of 100000
  entries: entry R of the vector is entry (R, 0) of the column (same place in row-major order), that is the dot
  product of rows R of the two tables.  So every execution ends with the result buffer at the vector of row-wise
  dot products and the argument unchanged.
-/
import proofs.«100142_g35107062678319_cont_8to1_b_364_6_alg».proof.Proof.Gen.KernelIdeal.Frame
import proofs.«100142_g35107062678319_cont_8to1_b_364_6_alg».proof.Proof.RowDot
import proofs.«100142_g35107062678319_cont_8to1_b_364_6_alg».proof.Proof.KernelArray
import Idealize.ShloMosaic.Lib.Pipeline.Value
import Idealize.ShloMosaic.Lib.StableHlo.Run
import Idealize.ShloMosaic.Lib.ValueIdx

noncomputable section

open scoped BigOperators

namespace Cert.RowDot

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The column of dot products reshaped to a vector is the vector of dot products. -/
theorem column_as_vector (x : Tables) (h : (⟨2, ![100000, 1]⟩ : Shape).ShapeCasts ⟨1, ![100000]⟩) :
    shapeCast ⟨1, ![100000]⟩ (asColumn x) h = asVector x := by
  funext i
  have hi : (i 0).val < 100000 := (i 0).isLt
  refine (shapeCast_apply (asColumn x) h i (ix2 (⟨(i 0).val, hi⟩ : Fin 100000) (0 : Fin 1)) ?_).trans ?_
  · rw [Shape.rowMajor_val_one, Shape.rowMajor_val_two]
    show (i 0).val * 1 + 0 = (i 0).val
    omega
  · rfl

/-- What the line after the region leaves in the result buffer. -/
theorem tail_eq (c : Dev nD) :
    Pipeline.afterTail₀ cfgs (dats m) 0 (V0 m) [hostOps1] c main_v1
      = asVector (m ((c : Thread nD τ).loc main_arg0)) := by
  unfold Pipeline.afterTail₀
  show StableHlo.after hostOps1 _ (Proc.devRef .tc main_v1) = _
  after_results
  have hw : (Pipeline.withArrays spec0 c (V0 m c) (fun w => (dats m 0 c).arrAt w cfg0.N) (Proc.devRef .tc main_v0)
      : S100000x1.Idx → EReal) = asColumn (m ((c : Thread nD τ).loc main_arg0)) :=
    (Pipeline.withArrays_arr spec0 launch0.win.arr_inj c _ _ 1).trans (column_final m c)
  refine Eq.trans ?_ (column_as_vector (m ((c : Thread nD τ).loc main_arg0)) shapeCasts_S100000x1_S100000)
  exact congrArg (fun v : S100000x1.Idx → EReal => shapeCast S100000 v shapeCasts_S100000x1_S100000) hw

/-- Every execution of the kernel's program ends with the result at the vector of row-wise dot products of the
    argument's two tables, and the argument as it was. -/
theorem run : θ_run defs (onTc (τ := τ) (main (F := Ideal))) ⟨m, fun _ => 0, ρ⟩ fun r => ∀ c : Dev nD,
      r.2.mem ((c : Thread nD τ).loc main_v1) = asVector (m ((c : Thread nD τ).loc main_arg0))
      ∧ r.2.mem ((c : Thread nD τ).loc main_arg0) = m ((c : Thread nD τ).loc main_arg0) :=
  (θ_run defs _ _).mono (fun r h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c)))⟩)
    (run_main m ρ)

end Cert.RowDot

end
-- ==== Proof.lean ====
/-
  The kernel computes, for 100000 rows, the dot product of a row of the first table with the same row of the second:
  out[r] = ∑_k x[0,r,k] · x[1,r,k], 25 grid points of 4000 rows each, written as a column and reshaped to a vector.
  The reference computes jnp.sum(x[0] * x[1], axis=1): the same products summed over the same 128 columns, from 0.
  Over the extended reals both are the same finite sum, term by term (0 is neutral for the sum), so no property of
  the inputs is used: the precondition is never opened.

  The pieces: the function itself (Proof/RowDot.lean), the reference read as that function (Proof/RefRowDot.lean),
  one grid point of the kernel read at an entry (Proof/KernelRows.lean), the 25 written-back blocks tiling the
  column (Proof/KernelArray.lean), and the run with the final reshape (Proof/KernelRun.lean).  The three programs'
  runs themselves (termination, no fault, arguments unchanged) are the generated frame proofs and the generated
  run of the reference.
-/
import proofs.«100142_g35107062678319_cont_8to1_b_364_6_alg».proof.Defs
import proofs.«100142_g35107062678319_cont_8to1_b_364_6_alg».proof.Proof.Gen.Kernel
import proofs.«100142_g35107062678319_cont_8to1_b_364_6_alg».proof.Proof.Gen.Kernel.Skeleton
import proofs.«100142_g35107062678319_cont_8to1_b_364_6_alg».proof.Proof.Gen.Kernel.Launch
import proofs.«100142_g35107062678319_cont_8to1_b_364_6_alg».proof.Proof.Gen.Kernel.Points
import proofs.«100142_g35107062678319_cont_8to1_b_364_6_alg».proof.Proof.Gen.Kernel.Frame
import proofs.«100142_g35107062678319_cont_8to1_b_364_6_alg».proof.Proof.Gen.KernelIdeal
import proofs.«100142_g35107062678319_cont_8to1_b_364_6_alg».proof.Proof.Gen.KernelIdeal.Skeleton
import proofs.«100142_g35107062678319_cont_8to1_b_364_6_alg».proof.Proof.Gen.KernelIdeal.Launch
import proofs.«100142_g35107062678319_cont_8to1_b_364_6_alg».proof.Proof.Gen.KernelIdeal.Points
import proofs.«100142_g35107062678319_cont_8to1_b_364_6_alg».proof.Proof.Gen.KernelIdeal.Frame
import proofs.«100142_g35107062678319_cont_8to1_b_364_6_alg».proof.Proof.Gen.ReferenceIdeal
import proofs.«100142_g35107062678319_cont_8to1_b_364_6_alg».proof.Proof.Gen.Pre_finite_inputs
import proofs.«100142_g35107062678319_cont_8to1_b_364_6_alg».proof.Proof.Gen.ReferenceIdeal.Run
import proofs.«100142_g35107062678319_cont_8to1_b_364_6_alg».proof.Proof.Gen.ReferenceIdeal.Read
import proofs.«100142_g35107062678319_cont_8to1_b_364_6_alg».proof.Proof.RowDot
import proofs.«100142_g35107062678319_cont_8to1_b_364_6_alg».proof.Proof.RefRowDot
import proofs.«100142_g35107062678319_cont_8to1_b_364_6_alg».proof.Proof.KernelRun
import Idealize.ShloMosaic.Adequacy
import Idealize.ShloMosaic.Init

noncomputable section

namespace Cert.Proof

open Idealize.ShloMosaic Idealize.SL.Sem

/-- The word-level kernel terminates without a fault and leaves its argument as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the vector of row-wise dot products of the (common) argument's two tables. -/
theorem algebraic : Cert.algebraic_KernelIdeal_ReferenceIdeal := by
  intro m ρ m' ρ' _ hagree
  refine ⟨fun c => Cert.RowDot.asVector (m (c.tc.loc Cert.KernelIdeal.main_arg0)), Cert.RowDot.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RowDot.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
